-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel

variable [Facts]

def fn {F : FTy → Type} [FloatOps F] (main_arg0 : FVec F S4x512x128 .f32) (main_arg1 : FVec F S4x512x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  main_v8
-- ==== Kernel.lean ====
abbrev S4x512x128 : Shape := ⟨3, ![4, 512, 128]⟩
abbrev S4x512x512 : Shape := ⟨3, ![4, 512, 512]⟩
abbrev S4x1x512 : Shape := ⟨3, ![4, 1, 512]⟩
abbrev S1x128x128 : Shape := ⟨3, ![1, 128, 128]⟩
abbrev S1x1x128 : Shape := ⟨3, ![1, 1, 128]⟩
abbrev S1x128 : Shape := ⟨2, ![1, 128]⟩
abbrev S128x128 : Shape := ⟨2, ![128, 128]⟩
abbrev S128x1x128 : Shape := ⟨3, ![128, 1, 128]⟩
abbrev S128x128x128 : Shape := ⟨3, ![128, 128, 128]⟩
abbrev S128 : Shape := ⟨1, ![128]⟩

abbrev nBuf : Space → Nat
  | .hbm => 4
  | .vmem => 9
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x512, .f32⟩
  | .hbm, ⟨3, _⟩ => ⟨S4x1x512, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_16 : BitVec 32 := 0#32
  let v30 : BitVec 1 := Scalar.cmpi .ne v29 c0_i32_16
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  reduces_S128x128_S128 : S128x128.Reduces [1] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x512x128.size a
  hwx0_0 : ∀ i : grid0.Coords, EltTy.bits .f32 = 32 ∨ (Rect.block (s := S4x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S4x512x512.size a
  hwx0_2 : ∀ i : grid0.Coords, EltTy.bits .f32 = 32 ∨ (Rect.block (s := S4x512x512) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x512.size a
  hwx0_3 : ∀ i : grid0.Coords, EltTy.bits .f32 = 32 ∨ (Rect.block (s := S4x1x512) S1x1x128.size (cc0_transform_3 i) (hinb0_3 i)).WholeWords (EltTy.packing .f32)

variable [Facts₀]

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x512x128 : Shape := ⟨3, ![4, 512, 128]⟩
abbrev S4x1x512x128 : Shape := ⟨4, ![4, 1, 512, 128]⟩
abbrev S4x512x1x128 : Shape := ⟨4, ![4, 512, 1, 128]⟩
abbrev S4x512x512x128 : Shape := ⟨4, ![4, 512, 512, 128]⟩
abbrev S_ : Shape := ⟨0, ![]⟩
abbrev S4x512x512 : Shape := ⟨3, ![4, 512, 512]⟩
abbrev S4x512 : Shape := ⟨2, ![4, 512]⟩
abbrev S4x1x512 : Shape := ⟨3, ![4, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x1x512x128, .f32⟩
  | .hbm, ⟨3, _⟩ => ⟨S4x512x1x128, .f32⟩
  | .hbm, ⟨4, _⟩ => ⟨S4x512x512x128, .f32⟩
  | .hbm, ⟨5, _⟩ => ⟨S4x512x512x128, .f32⟩
  | .hbm, ⟨6, _⟩ => ⟨S4x512x512x128, .f32⟩
  | .hbm, ⟨7, _⟩ => ⟨S4x512x512x128, .f32⟩
  | .hbm, ⟨8, _⟩ => ⟨S_, .f32⟩
  | .hbm, ⟨9, _⟩ => ⟨S4x512x512, .f32⟩
  | .hbm, ⟨10, _⟩ => ⟨S_, .f32⟩
  | .hbm, ⟨11, _⟩ => ⟨S4x512x512, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S_, .f32⟩
  | .hbm, ⟨16, _⟩ => ⟨S4x512, .f32⟩
  | .hbm, ⟨17, _⟩ => ⟨S4x1x512, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S4x512x128_S4x1x512x128_0_2_3 : S4x512x128.BroadcastsInDim S4x1x512x128 (![0, 2, 3] : Fin 3 → Fin S4x1x512x128.rank)
  bcast_S4x512x128_S4x512x1x128_0_1_3 : S4x512x128.BroadcastsInDim S4x512x1x128 (![0, 1, 3] : Fin 3 → Fin S4x512x1x128.rank)
  bcast_S4x1x512x128_S4x512x512x128_0_1_2_3 : S4x1x512x128.BroadcastsInDim S4x512x512x128 (![0, 1, 2, 3] : Fin 4 → Fin S4x512x512x128.rank)
  bcast_S4x512x1x128_S4x512x512x128_0_1_2_3 : S4x512x1x128.BroadcastsInDim S4x512x512x128 (![0, 1, 2, 3] : Fin 4 → Fin S4x512x512x128.rank)
  reducesTo_S4x512x512x128_S4x512x512_d3 : S4x512x512x128.ReducesTo [3] S4x512x512
  h_S_ : 0 < S_.numel
  bcast_S_S4x512x512 : S_.BroadcastsInDim S4x512x512 (![] : Fin 0 → Fin S4x512x512.rank)
  transposes_S4x512x512_S4x512x512_0_2_1 : S4x512x512.Transposes [0, 2, 1] S4x512x512
  reducesTo_S4x512x512_S4x512_d2 : S4x512x512.ReducesTo [2] S4x512
  bcast_S4x512_S4x1x512_0_2 : S4x512.BroadcastsInDim S4x1x512 (![0, 2] : Fin 2 → Fin S4x1x512.rank)

variable [Facts₀]

class Facts : Prop extends Facts₀ where

variable [Facts]
-- ==== Proof.Pieces.lean ====
/-
  What one grid point's body leaves behind, buffer by buffer, as a function of what it loaded.

  The body has three courses, by the position j of the point on the grid's last axis:
    first point of a row sweep (j = 0): the running-maximum scratch is reset to -∞ and then updated;
    middle points (j = 1, 2):           the scratch is updated from what the point before left;
    last point (j = 3):                 the scratch is updated and then copied out as the sim block.
  In every course the att block is stored whole from the two loaded blocks alone.

  Each statement below reads one buffer after one course: the att block, the scratch, the sim block.
  A buffer's last covering store decides its contents; where the body loads the scratch back after
  storing into it, the load sees that store. All of it holds for any reading of the floats.
-/
import proofs.«103267_j42649025249395_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

variable (c : Dev nD) (i : grid0.Coords)
  (a3 : Memref sig .tc .vmem S1x128x128 .f32) (h3 : a3.IsWhole) (a4 : Memref sig .tc .vmem S1x128x128 .f32) (h4 : a4.IsWhole)
  (a5 : Memref sig .tc .vmem S1x128x128 .f32) (h5 : a5.IsWhole) (a6 : Memref sig .tc .vmem S1x1x128 .f32) (h6 : a6.IsWhole)
  (a7 : Memref sig .tc .vmem S1x128 .f32) (h7 : a7.IsWhole)
  (x0 x1 : Vec F S1x128x128 .f32) (xs : Vec F S1x128 .f32)

/-! ## The att block: the same in all three courses -/

theorem att_first (hc0 : cond0_0 i) (hc1 : ¬cond0_1 i) :
    out0_A_2 c i a3 h3 a4 h4 a5 h5 a6 h6 a7 h7 hc0 hc1 x0 x1 = k0_pay3 x0 x1 := by
  unfold out0_A_2
  rw [View.read_writes_eq_canon _ _ _ (cover0_A_2 c i a3 h3 a4 h4 a5 h5 a6 h6 a7 h7 hc0 hc1 x0 x1)]
  unfold kernelRun0_A
  dsimp only
  sl_unfold_words
  rw [View.canon_unit_zero zero3]
  simp only [View.readAt_eq_ld, h3.read_unread, h4.read_unread, View.ld_unit_zero (S := S1x128x128) zero3]

theorem att_middle (hc0 : ¬cond0_0 i) (hc1 : ¬cond0_1 i) :
    out0_B_2 c i a3 h3 a4 h4 a5 h5 a6 h6 a7 h7 hc0 hc1 x0 x1 xs = k0_pay3 x0 x1 := by
  unfold out0_B_2
  rw [View.read_writes_eq_canon _ _ _ (cover0_B_2 c i a3 h3 a4 h4 a5 h5 a6 h6 a7 h7 hc0 hc1 x0 x1 xs)]
  unfold kernelRun0_B
  dsimp only
  sl_unfold_words
  rw [View.canon_unit_zero zero3]
  simp only [View.readAt_eq_ld, h3.read_unread, h4.read_unread, View.ld_unit_zero (S := S1x128x128) zero3]

theorem att_last (hc0 : ¬cond0_0 i) (hc1 : cond0_1 i) :
    out0_C_2 c i a3 h3 a4 h4 a5 h5 a6 h6 a7 h7 hc0 hc1 x0 x1 xs = k0_pay3 x0 x1 := by
  unfold out0_C_2
  rw [View.read_writes_eq_canon _ _ _ (cover0_C_2 c i a3 h3 a4 h4 a5 h5 a6 h6 a7 h7 hc0 hc1 x0 x1 xs)]
  unfold kernelRun0_C
  dsimp only
  sl_unfold_words
  rw [View.canon_unit_zero zero3]
  simp only [View.readAt_eq_ld, h3.read_unread, h4.read_unread, View.ld_unit_zero (S := S1x128x128) zero3]

/-! ## The running-maximum scratch -/

/-- At a row sweep's first point the update reads the reset value just stored. -/
theorem scratch_first (hc0 : cond0_0 i) (hc1 : ¬cond0_1 i) :
    sout0_A_0 c i a3 h3 a4 h4 a5 h5 a6 h6 a7 h7 hc0 hc1 x0 x1 = k0_pay4 x0 x1 (k0_pay1 (F := F)) := by
  unfold sout0_A_0
  rw [View.read_writes_eq_canon _ _ _ (scover0_A_0 c i a3 h3 a4 h4 a5 h5 a6 h6 a7 h7 hc0 hc1 x0 x1)]
  unfold kernelRun0_A
  dsimp only
  sl_unfold_words
  rw [View.canon_cons_unit_zero (S := S1x128) zero2, View.readCov_unit_zero (S := S1x128) _ zero2]
  simp only [View.readAt_eq_ld, h3.read_unread, h4.read_unread, View.ld_unit_zero (S := S1x128x128) zero3,
    View.ld_unit_zero (S := S1x128) zero2]

/-- At the other points the update reads what the point before left (xs). -/
theorem scratch_middle (hc0 : ¬cond0_0 i) (hc1 : ¬cond0_1 i) :
    sout0_B_0 c i a3 h3 a4 h4 a5 h5 a6 h6 a7 h7 hc0 hc1 x0 x1 xs = k0_pay4 x0 x1 xs := by
  unfold sout0_B_0
  rw [View.read_writes_eq_canon _ _ _ (scover0_B_0 c i a3 h3 a4 h4 a5 h5 a6 h6 a7 h7 hc0 hc1 x0 x1 xs)]
  unfold kernelRun0_B
  dsimp only
  sl_unfold_words
  rw [View.canon_unit_zero zero2]
  simp only [View.readAt_eq_ld, h3.read_unread, h4.read_unread, h7.read_unread, View.ld_unit_zero (S := S1x128x128) zero3,
    View.ld_unit_zero (S := S1x128) zero2]

theorem scratch_last (hc0 : ¬cond0_0 i) (hc1 : cond0_1 i) :
    sout0_C_0 c i a3 h3 a4 h4 a5 h5 a6 h6 a7 h7 hc0 hc1 x0 x1 xs = k0_pay4 x0 x1 xs := by
  unfold sout0_C_0
  rw [View.read_writes_eq_canon _ _ _ (scover0_C_0 c i a3 h3 a4 h4 a5 h5 a6 h6 a7 h7 hc0 hc1 x0 x1 xs)]
  unfold kernelRun0_C
  dsimp only
  sl_unfold_words
  rw [View.canon_unit_zero zero2]
  simp only [View.readAt_eq_ld, h3.read_unread, h4.read_unread, h7.read_unread, View.ld_unit_zero (S := S1x128x128) zero3,
    View.ld_unit_zero (S := S1x128) zero2]

/-! ## The sim block: stored at a row sweep's last point only, a copy of the updated scratch -/

theorem sim_last (hc0 : ¬cond0_0 i) (hc1 : cond0_1 i) :
    out0_C_3 c i a3 h3 a4 h4 a5 h5 a6 h6 a7 h7 hc0 hc1 x0 x1 xs = k0_pay5 (k0_pay4 x0 x1 xs) := by
  unfold out0_C_3
  rw [View.read_writes_eq_canon _ _ _ (cover0_C_3 c i a3 h3 a4 h4 a5 h5 a6 h6 a7 h7 hc0 hc1 x0 x1 xs)]
  unfold kernelRun0_C
  dsimp only
  sl_unfold_words
  rw [View.canon_unit_zero zero3]
  simp only [View.readAt_eq_ld, h3.read_unread, h4.read_unread, h7.read_unread, View.ld_unit_zero (S := S1x128x128) zero3,
    View.ld_unit_zero (S := S1x128) zero2, View.readCov_unit_zero (S := S1x128) _ zero2]

end Cert.KernelIdeal.Pieces

end
-- ==== Proof.L1Att.lean ====
/-
  The function both programs compute, on the extended reals.

  For arrays Q, Y of shape [4, 512, 128] (batch, row, feature):

    att Q Y b i j = -( (∑ d < 128, |Q[b,i,d] - Y[b,j,d]|) / 128 ),   where |x| is max x (-x),
    sim Q Y b i   = the maximum of att Q Y b i j over the 512 columns j, started from -∞.

  att is minus the mean L1 distance between row i of Q and row j of Y; sim is its row maximum.
  The divisor and the starting value are kept as the f32 words the two programs print (128.0 and
  -∞): the same word stands on both sides, so neither is ever evaluated.

  The one law proved here: a row maximum may be taken 128 columns at a time. If v is the maximum
  over the columns below 128·k and w is the maximum over the next 128 columns, then max v w is the
  maximum over the columns below 128·(k+1). A maximum is pinned down by its upper bounds
  (z bounds it exactly when z bounds the starting value and every entry), so the law is stated and
  used in that form: no ordering of the 512 columns, and no value of -∞, enters.
-/
import Idealize.ShloMosaic.PureOps.Ideal
import Idealize.ShloMosaic.PureOps.Ideal.Laws
import Idealize.ShloMosaic.Lib.ValueIdx

noncomputable section

open scoped BigOperators

namespace Cert.L1Att

open Idealize.ShloMosaic Idealize.ShloMosaic.ValueIdx

/-- The shape of each argument: [4, 512, 128]. -/
abbrev SArg : Shape := ⟨3, ![4, 512, 128]⟩
/-- The shape of the first result: [4, 512, 512]. -/
abbrev SAtt : Shape := ⟨3, ![4, 512, 512]⟩
/-- The shape of the second result: [4, 1, 512]. -/
abbrev SSim : Shape := ⟨3, ![4, 1, 512]⟩

/-- The f32 word of 128.0, the number of features a mean is taken over. -/
abbrev width : EReal := Ideal.ofBits .f32 0x43000000#32
/-- The f32 word of -∞, which every maximum starts from. -/
abbrev negInf : EReal := Ideal.ofBits .f32 0xFF800000#32

/-- Minus the mean over the 128 features of |Q[b,i,d] - Y[b,j,d]|. -/
def att (Q Y : SArg.Idx → EReal) (b : Fin 4) (i j : Fin 512) : EReal :=
  -(Ideal.div (∑ d : Fin 128, max (Q (ix3 b i d) - Y (ix3 b j d)) (-(Q (ix3 b i d) - Y (ix3 b j d)))) width)

/-- The maximum of row (b, i) of att over its 512 columns, started from -∞. -/
def sim (Q Y : SArg.Idx → EReal) (b : Fin 4) (i : Fin 512) : EReal :=
  (Finset.univ : Finset (Fin 512)).fold max negInf (fun j => att Q Y b i j)

/-- The first result as a whole array. -/
def attArr (Q Y : SArg.Idx → EReal) : SAtt.Idx → EReal := fun x => att Q Y (x 0) (x 1) (x 2)
/-- The second result as a whole array: its middle axis has one entry. -/
def simArr (Q Y : SArg.Idx → EReal) : SSim.Idx → EReal := fun x => sim Q Y (x 0) (x 2)

variable (Q Y : SArg.Idx → EReal) (b : Fin 4) (i : Fin 512)

/-- z bounds the row maximum exactly when it bounds -∞ and every entry of the row. -/
theorem sim_le_iff (z : EReal) : sim Q Y b i ≤ z ↔ negInf ≤ z ∧ ∀ j : Fin 512, att Q Y b i j ≤ z := by
  unfold sim
  rw [Finset.fold_max_le]
  exact and_congr_right fun _ => ⟨fun h j => h j (Finset.mem_univ j), fun h j _ => h j⟩

/-- v is the maximum of row (b, i) over the columns below n, started from -∞: said by its upper bounds. -/
def IsMaxBelow (n : Nat) (v : EReal) : Prop :=
  ∀ z, v ≤ z ↔ negInf ≤ z ∧ ∀ j : Fin 512, j.val < n → att Q Y b i j ≤ z

/-- Over no columns the maximum is the starting value. -/
theorem isMaxBelow_zero : IsMaxBelow Q Y b i 0 negInf :=
  fun _ => ⟨fun h => ⟨h, fun _ hj => absurd hj (Nat.not_lt_zero _)⟩, fun h => h.1⟩

/-- THE LAW. Joining the maximum over the columns below 128·k with the maximum of the next 128
    columns (w's entries, each started from -∞ again) gives the maximum below 128·(k+1). -/
theorem IsMaxBelow.step {k : Nat} (hk : k < 4) {v : EReal} (hv : IsMaxBelow Q Y b i (128 * k) v)
    (w : Fin 128 → EReal) (hw : ∀ q : Fin 128, w q = att Q Y b i ⟨128 * k + q.val, by omega⟩) :
    IsMaxBelow Q Y b i (128 * (k + 1)) (max v ((Finset.univ : Finset (Fin 128)).fold max negInf w)) := by
  intro z
  rw [max_le_iff, hv z, Finset.fold_max_le]
  constructor
  · rintro ⟨⟨h0, hlo⟩, _, hq⟩
    refine ⟨h0, fun j hj => ?_⟩
    by_cases h : j.val < 128 * k
    · exact hlo j h
    · have e := hq ⟨j.val - 128 * k, by omega⟩ (Finset.mem_univ _)
      rw [hw] at e
      have ej : (⟨128 * k + (j.val - 128 * k), by omega⟩ : Fin 512) = j := Fin.ext (by simp only []; omega)
      rwa [ej] at e
  · rintro ⟨h0, h⟩
    exact ⟨⟨h0, fun j hj => h j (by omega)⟩, h0, fun q _ => by rw [hw]; exact h _ (by simp only []; omega)⟩

/-- Over all 512 columns it is the row maximum. -/
theorem IsMaxBelow.eq_sim {v : EReal} (hv : IsMaxBelow Q Y b i 512 v) : v = sim Q Y b i :=
  eq_of_forall_ge_iff fun z => (hv z).trans
    ((and_congr_right fun _ => ⟨fun h j => h j j.isLt, fun h j _ => h j⟩).trans (sim_le_iff Q Y b i z).symm)

end Cert.L1Att

end
-- ==== Proof.Payload.lean ====
/-
  The body's arithmetic, read at one entry.

  From the two loaded blocks x0 (128 rows of Q) and x1 (128 rows of Y), each laid out [1, 128, 128]:
    the distance tile at (p, q) is  0 - (∑ d, |x0[0,p,d] - x1[0,q,d]|) / 128, which on the extended
      reals is minus that mean (0 - x = -x holds there without exception);
    the att block stores that tile under a leading axis of length one;
    the scratch update at lane p is  max (old scratch at p) (the maximum of row p of the tile, from -∞);
    the reset value is -∞ at every lane; the sim block is the scratch under one more unit axis.
  The broadcasts that set row p of x0 against row q of x1 are followed coordinate by coordinate:
  a reshape keeps the row-major position, a broadcast reads position 0 on an axis of length one.
-/
import proofs.«103267_j42649025249395_1_alg».proof.Proof.Gen.KernelIdeal.Skeleton
import proofs.«103267_j42649025249395_1_alg».proof.Proof.L1Att
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.L1Att
open Idealize.ShloMosaic Idealize.ShloMosaic.ValueIdx

variable (x0 x1 : Vec Ideal S1x128x128 .f32)

/-- Row p of the first block, given a middle axis of length one and spread over it: at (p, q, d) it is x0[0, p, d]. -/
theorem spreadRows_apply (p q d : Fin 128) :
    broadcastTo S128x128x128 (shapeCast S128x1x128 (shapeCast S128x128 x0 shapeCasts_S1x128x128_S128x128)
      shapeCasts_S128x128_S128x1x128) broadcasts_S128x1x128_S128x128x128 (ix3 p q d) = x0 (ix3 0 p d) := by
  refine (broadcastTo_apply _ _ (ix3 p q d) (ix3 p 0 d) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show d.val = if (128 : Nat) = 1 then 0 else d.val; rw [if_neg (by decide)]
  refine (shapeCast_apply _ _ (ix3 p 0 d) (ix2 p d) ?_).trans ?_
  · rw [Shape.rowMajor_val_two, Shape.rowMajor_val_three]
    show p.val * 128 + d.val = (p.val * 1 + 0) * 128 + d.val
    omega
  refine shapeCast_apply _ _ (ix2 p d) (ix3 0 p d) ?_
  rw [Shape.rowMajor_val_three, Shape.rowMajor_val_two]
  show (0 * 128 + p.val) * 128 + d.val = p.val * 128 + d.val
  omega

/-- The second block spread over a new leading axis: at (p, q, d) it is x1[0, q, d]. -/
theorem spreadCols_apply (p q d : Fin 128) :
    broadcastTo S128x128x128 (shapeCast S1x128x128 (shapeCast S128x128 x1 shapeCasts_S1x128x128_S128x128)
      shapeCasts_S128x128_S1x128x128) broadcasts_S1x128x128_S128x128x128 (ix3 p q d) = x1 (ix3 0 q d) := by
  rw [shapeCast_shapeCast]
  refine broadcastTo_apply _ _ (ix3 p q d) (ix3 0 q d) (fun a => ?_)
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show d.val = if (128 : Nat) = 1 then 0 else d.val; rw [if_neg (by decide)]

/-- THE DISTANCE TILE at (p, q): minus the mean over d of |x0[0,p,d] - x1[0,q,d]|. -/
theorem tile_apply (p q : Fin 128) :
    k0_pay2 (F := Ideal) x0 x1 (ix2 p q)
      = -(Ideal.div (∑ d : Fin 128, max (x0 (ix3 0 p d) - x1 (ix3 0 q d)) (-(x0 (ix3 0 p d) - x1 (ix3 0 q d)))) width) := by
  unfold k0_pay2
  show Ideal.ofBits .f32 0x00000000#32
      - Ideal.div (multiReduction (F := Ideal) .add [2] S128x128 _ 0x00000000#32 reduces_S128x128x128_S128x128 (.inl rfl) rfl (ix2 p q))
          (Ideal.ofBits .f32 0x43000000#32) = _
  rw [Ideal.ofBits_zero_f32, zero_sub]
  refine congrArg (fun s => -(Ideal.div s width)) ?_
  refine (Ideal.multiReduction_add_single _ _ reduces_S128x128x128_S128x128 _ _ (ix2 p q)).trans ?_
  refine Finset.sum_congr rfl fun d' _ => ?_
  obtain ⟨d, rfl⟩ : ∃ d : Fin 128, d = d' := ⟨d', rfl⟩
  have e : reduces_S128x128x128_S128x128.lift (ix2 p q) d = ix3 p q d :=
    funext fun a => Fin.ext (by match a with | ⟨0, _⟩ => rfl | ⟨1, _⟩ => rfl | ⟨2, _⟩ => rfl)
  rw [e]
  show max (_ - _) (-(_ - _)) = _
  rw [spreadRows_apply, spreadCols_apply]

/-- The att block is the tile under a leading unit axis. -/
theorem attBlock_apply (p q : Fin 128) :
    k0_pay3 (F := Ideal) x0 x1 (ix3 0 p q) = k0_pay2 (F := Ideal) x0 x1 (ix2 p q) := by
  unfold k0_pay3
  refine shapeCast_apply _ _ (ix3 0 p q) (ix2 p q) ?_
  rw [Shape.rowMajor_val_two, Shape.rowMajor_val_three]
  show p.val * 128 + q.val = (0 * 128 + p.val) * 128 + q.val
  omega

/-- The reset value: -∞ at every lane. -/
theorem reset_apply (p : Fin 128) : k0_pay1 (F := Ideal) (ix2 0 p) = negInf := by
  unfold k0_pay1
  rw [shapeCast_self]
  rfl

/-- THE SCRATCH UPDATE at lane p: the old value joined with the maximum of row p of the tile, taken from -∞. -/
theorem update_apply (s : Vec Ideal S1x128 .f32) (p : Fin 128) :
    k0_pay4 (F := Ideal) x0 x1 s (ix2 0 p)
      = max (s (ix2 0 p)) ((Finset.univ : Finset (Fin 128)).fold max negInf (fun q => k0_pay2 (F := Ideal) x0 x1 (ix2 p q))) := by
  unfold k0_pay4
  rw [shapeCast_self]
  show max (s (ix2 0 p)) (shapeCast S1x128 _ shapeCasts_S128_S1x128 (ix2 0 p)) = _
  refine congrArg (max (s (ix2 0 p))) ?_
  refine (shapeCast_apply _ _ (ix2 0 p) (ix1 p) ?_).trans ?_
  · rw [Shape.rowMajor_val_one, Shape.rowMajor_val_two]
    show p.val = 0 * 128 + p.val
    omega
  refine (Ideal.multiReduction_maximumf_single _ _ reduces_S128x128_S128 _ _ (ix1 p)).trans ?_
  refine congrArg (fun f => Finset.fold max negInf f (Finset.univ : Finset (Fin 128))) (funext fun q => ?_)
  show k0_pay2 (F := Ideal) x0 x1 (reduces_S128x128_S128.lift (ix1 p) q) = _
  exact congrArg _ (funext fun a => Fin.ext (by match a with | ⟨0, _⟩ => rfl | ⟨1, _⟩ => rfl))

/-- The sim block is the scratch under one more unit axis. -/
theorem simBlock_apply (s : Vec Ideal S1x128 .f32) (p : Fin 128) :
    k0_pay5 (F := Ideal) s (ix3 0 0 p) = s (ix2 0 p) := by
  unfold k0_pay5
  refine shapeCast_apply _ _ (ix3 0 0 p) (ix2 0 p) ?_
  rw [Shape.rowMajor_val_two, Shape.rowMajor_val_three]
  show 0 * 128 + p.val = (0 * 1 + 0) * 128 + p.val
  omega

end Cert.KernelIdeal.Payload

end
-- ==== Proof.KernelWhole.lean ====
/-
  What the kernel's run leaves in its two result arrays: att and sim of the two argument arrays.

  The grid has 4 × 4 × 4 points; point t works on batch b = t / 16, row tile t / 4 mod 4 and column
  tile j = t mod 4. It loads rows 128·(t / 4 mod 4) … of Q[b] and rows 128·j … of Y[b], so the
  distance tile it forms is att at those rows and columns, and that is what it writes back as block
  (b, row tile, j) of the first result: the blocks tile the array, so the array ends as att.

  The scratch carries a running maximum along a sweep j = 0, 1, 2, 3 of one row tile. After point t
  its lane p holds the maximum of row 128·(t / 4 mod 4) + p of att over the columns below 128·(j + 1):
  at j = 0 the reset value -∞ is joined with the first tile's row maximum, and each later point joins
  what the point before left with its own tile's row maximum (the law of the specification, once per
  point; by induction on the point). At j = 3 that is the maximum over all 512 columns, sim, and it
  is then that the scratch is copied out and written back as block (b, 0, row tile) of the second
  result; those blocks tile it.
-/
import proofs.«103267_j42649025249395_1_alg».proof.Proof.Gen.KernelIdeal.Value
import proofs.«103267_j42649025249395_1_alg».proof.Proof.Pieces
import proofs.«103267_j42649025249395_1_alg».proof.Proof.Payload
import proofs.«103267_j42649025249395_1_alg».proof.Proof.L1Att

set_option maxRecDepth 16384

noncomputable section

open scoped BigOperators

namespace Cert.KernelIdeal.Whole

open Cert.KernelIdeal Cert.KernelIdeal.Gen Cert.L1Att
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two argument arrays as launched. -/
abbrev Qa (c : Dev nD) : SArg.Idx → EReal := m ((c : Thread nD τ).loc main_arg0)
abbrev Ya (c : Dev nD) : SArg.Idx → EReal := m ((c : Thread nD τ).loc main_arg1)

/-- The blocks point t loads: 128 rows of Q[b] and 128 rows of Y[b]. -/
abbrev qBlk (c : Dev nD) (t : Fin cfg0.N) : Vec Ideal S1x128x128 .f32 := iblk m c 0 t
abbrev yBlk (c : Dev nD) (t : Fin cfg0.N) : Vec Ideal S1x128x128 .f32 := iblk m c 1 t

/-- Point n's batch, and the array row and column its tile's entry (p, q) stands for. -/
abbrev batchOf (n : ℕ) : Fin 4 := ⟨n / 16 % 4, Nat.mod_lt _ (by decide)⟩
abbrev rowOf (n : ℕ) (p : Fin 128) : Fin 512 := ⟨128 * (n / 4 % 4) + p.val, by have := p.isLt; omega⟩
abbrev colOf (n : ℕ) (q : Fin 128) : Fin 512 := ⟨128 * (n % 4) + q.val, by have := q.isLt; omega⟩

/-- The four index maps at point t, decided once over the 64 points. -/
theorem idx_facts : ∀ t : Fin cfg0.N,
    (win0_0.index t 0 = t.val / 16 % 4 ∧ win0_0.index t 1 = t.val / 4 % 4 ∧ win0_0.index t 2 = 0)
    ∧ (win0_1.index t 0 = t.val / 16 % 4 ∧ win0_1.index t 1 = t.val % 4 ∧ win0_1.index t 2 = 0)
    ∧ (win0_2.index t 0 = t.val / 16 % 4 ∧ win0_2.index t 1 = t.val / 4 % 4 ∧ win0_2.index t 2 = t.val % 4)
    ∧ (win0_3.index t 0 = t.val / 16 % 4 ∧ win0_3.index t 1 = 0 ∧ win0_3.index t 2 = t.val / 4 % 4) :=
  (by decide +kernel : ∀ t : Fin grid0.N, _)

/-! ## The loaded blocks are rows of the arguments -/

theorem qBlk_apply (c : Dev nD) (t : Fin cfg0.N) (p d : Fin 128) :
    qBlk m c t (ix3 0 p d) = Qa m c (ix3 (batchOf t.val) (rowOf t.val p) d) := by
  obtain ⟨⟨e0, e1, e2⟩, -⟩ := idx_facts t
  show iblk m c 0 t (ix3 0 p d) = _
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t 0 * 1 + 1 * 0 = t.val / 16 % 4; omega
  | ⟨1, _⟩ => show win0_0.index t 1 * 128 + 1 * p.val = 128 * (t.val / 4 % 4) + p.val; omega
  | ⟨2, _⟩ => show win0_0.index t 2 * 128 + 1 * d.val = d.val; omega

theorem yBlk_apply (c : Dev nD) (t : Fin cfg0.N) (q d : Fin 128) :
    yBlk m c t (ix3 0 q d) = Ya m c (ix3 (batchOf t.val) (colOf t.val q) d) := by
  obtain ⟨-, ⟨e0, e1, e2⟩, -⟩ := idx_facts t
  show iblk m c 1 t (ix3 0 q d) = _
  unfold iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t 0 * 1 + 1 * 0 = t.val / 16 % 4; omega
  | ⟨1, _⟩ => show win0_1.index t 1 * 128 + 1 * q.val = 128 * (t.val % 4) + q.val; omega
  | ⟨2, _⟩ => show win0_1.index t 2 * 128 + 1 * d.val = d.val; omega

/-- So point t's distance tile at (p, q) is att at the row and column that entry stands for. -/
theorem tile_at (c : Dev nD) (t : Fin cfg0.N) (p q : Fin 128) :
    k0_pay2 (F := Ideal) (qBlk m c t) (yBlk m c t) (ix2 p q)
      = att (Qa m c) (Ya m c) (batchOf t.val) (rowOf t.val p) (colOf t.val q) := by
  refine (Payload.tile_apply (qBlk m c t) (yBlk m c t) p q).trans ?_
  unfold att
  refine congrArg (fun s => -(Ideal.div s width)) (Finset.sum_congr rfl fun d _ => ?_)
  rw [qBlk_apply, yBlk_apply]

/-! ## What each point leaves, from the three courses of the body -/

/-- Every point leaves its distance tile in the att buffer. -/
theorem attBuf_eq (c : Dev nD) (t : Fin cfg0.N) :
    (outsAt0 m c t.val t.isLt).1 = k0_pay3 (F := Ideal) (qBlk m c t) (yBlk m c t) := by
  by_cases h0 : t.val % 4 = 0
  · have h1 : ¬t.val % 4 = 3 := by omega
    rw [outsAt0_A m c t h0 h1]
    dsimp only
    exact Pieces.att_first (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) ((hcond0_0 t).mpr h0) (fun h => h1 ((hcond0_1 t).mp h))
  · by_cases h1 : t.val % 4 = 3
    · rw [outsAt0_C m c t h0 h1]
      dsimp only
      exact Pieces.att_last (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) ((hcond0_1 t).mpr h1)
    · rw [outsAt0_B m c t h0 h1]
      dsimp only
      exact Pieces.att_middle (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) (fun h => h1 ((hcond0_1 t).mp h))

/-- A sweep's first point leaves the reset value joined with its tile's row maxima. -/
theorem scratch_first_at (c : Dev nD) (t : Fin cfg0.N) (h0 : t.val % 4 = 0) :
    (outsAt0 m c t.val t.isLt).2.2 = k0_pay4 (F := Ideal) (qBlk m c t) (yBlk m c t) (k0_pay1 (F := Ideal)) := by
  have h1 : ¬t.val % 4 = 3 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) ((hcond0_0 t).mpr h0) (fun h => h1 ((hcond0_1 t).mp h))

/-- Every other point leaves what the point before left joined with its tile's row maxima. -/
theorem scratch_next_at (c : Dev nD) (t : Fin cfg0.N) (h0 : ¬t.val % 4 = 0) :
    (outsAt0 m c t.val t.isLt).2.2 = k0_pay4 (F := Ideal) (qBlk m c t) (yBlk m c t)
      (outsAt0 m c (t.val - 1) (Nat.lt_of_le_of_lt (Nat.sub_le _ _) t.isLt)).2.2 := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) ((hcond0_1 t).mpr h1)
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) (fun h => h1 ((hcond0_1 t).mp h))

/-- A sweep's last point leaves, in the sim buffer, a copy of the scratch it has just updated. -/
theorem simBuf_eq (c : Dev nD) (t : Fin cfg0.N) (h1 : t.val % 4 = 3) :
    (outsAt0 m c t.val t.isLt).2.1 = k0_pay5 (F := Ideal) (outsAt0 m c t.val t.isLt).2.2 := by
  have h0 : ¬t.val % 4 = 0 := by omega
  rw [outsAt0_C m c t h0 h1]
  dsimp only
  rw [Pieces.scratch_last (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) ((hcond0_1 t).mpr h1)]
  exact Pieces.sim_last (F := Ideal) c (grid0.coords t) (ms0_0 t) (hs0_0 t) (ms0_1 t) (hs0_1 t) (ms0_2 t) (hs0_2 t) (ms0_3 t) (hs0_3 t) scM0_0 (Memref.isWhole_whole _) (qBlk m c t) (yBlk m c t) _ (fun h => h0 ((hcond0_0 t).mp h)) ((hcond0_1 t).mpr h1)

/-! ## The running maximum -/

/-- THE INVARIANT. After point n, lane p of the scratch is the maximum of point n's row of att over
    the columns its sweep has covered so far. -/
theorem scratch_isMax (c : Dev nD) (n : ℕ) : ∀ (h : n < cfg0.N) (p : Fin 128),
    IsMaxBelow (Qa m c) (Ya m c) (batchOf n) (rowOf n p) (128 * (n % 4 + 1)) ((outsAt0 m c n h).2.2 (ix2 0 p)) := by
  induction n using Nat.strong_induction_on with
  | _ n ih =>
    intro h p
    by_cases h0 : n % 4 = 0
    · have key := IsMaxBelow.step (Qa m c) (Ya m c) (batchOf n) (rowOf n p) (k := 0) (by decide)
        (isMaxBelow_zero (Qa m c) (Ya m c) (batchOf n) (rowOf n p))
        (fun q => k0_pay2 (F := Ideal) (qBlk m c ⟨n, h⟩) (yBlk m c ⟨n, h⟩) (ix2 p q))
        (fun q => (tile_at m c ⟨n, h⟩ p q).trans
          (congrArg (att (Qa m c) (Ya m c) (batchOf n) (rowOf n p)) (Fin.ext (by show 128 * (n % 4) + q.val = 128 * 0 + q.val; omega))))
      rw [scratch_first_at m c ⟨n, h⟩ h0, Payload.update_apply, Payload.reset_apply,
        show 128 * (n % 4 + 1) = 128 * (0 + 1) from by omega]
      exact key
    · have hpos : n - 1 < n := by omega
      have IH := ih (n - 1) hpos (Nat.lt_of_le_of_lt (Nat.sub_le _ _) h) p
      have eb : batchOf (n - 1) = batchOf n := Fin.ext (by show (n - 1) / 16 % 4 = n / 16 % 4; omega)
      have er : rowOf (n - 1) p = rowOf n p :=
        Fin.ext (by show 128 * ((n - 1) / 4 % 4) + p.val = 128 * (n / 4 % 4) + p.val; omega)
      rw [eb, er, show 128 * ((n - 1) % 4 + 1) = 128 * (n % 4) from by omega] at IH
      have key := IsMaxBelow.step (Qa m c) (Ya m c) (batchOf n) (rowOf n p) (k := n % 4) (by omega) IH
        (fun q => k0_pay2 (F := Ideal) (qBlk m c ⟨n, h⟩) (yBlk m c ⟨n, h⟩) (ix2 p q))
        (fun q => tile_at m c ⟨n, h⟩ p q)
      rw [scratch_next_at m c ⟨n, h⟩ h0, Payload.update_apply]
      exact key

/-! ## The first result: every point writes back its block of att, and the blocks tile the array -/

theorem attFlushed (c : Dev nD) (t : Fin cfg0.N) :
    (dats m 0 c).flushed 2 t = ((cfg0.win 2).blk t).view.read (Elt Ideal) (attArr (Qa m c) (Ya m c)) := by
  obtain ⟨-, -, ⟨e0, e1, e2⟩, -⟩ := idx_facts t
  rw [Value.flushed2, attBuf_eq]
  funext y
  obtain ⟨z, p, q, rfl⟩ : ∃ (z : Fin 1) (p q : Fin 128), y = ix3 z p q := ⟨y 0, y 1, y 2, eq_ix3 y⟩
  obtain rfl : z = 0 := Subsingleton.elim _ _
  show k0_pay3 (F := Ideal) (qBlk m c t) (yBlk m c t) (ix3 0 p q)
    = attArr (Qa m c) (Ya m c) (((cfg0.win 2).blk t).view.emb (ix3 0 p q))
  refine (Payload.attBlock_apply _ _ p q).trans ((tile_at m c t p q).trans ?_)
  show att _ _ _ _ _ = att _ _ _ _ _
  congr 1 <;> apply Fin.ext
  · show t.val / 16 % 4 = win0_2.index t 0 * 1 + 1 * 0; omega
  · show 128 * (t.val / 4 % 4) + p.val = win0_2.index t 1 * 128 + 1 * p.val; omega
  · show 128 * (t.val % 4) + q.val = win0_2.index t 2 * 128 + 1 * q.val; omega

theorem mem_attBlk (t : Fin cfg0.N) (i : S4x512x512.Idx) :
    i ∈ ((cfg0.win 2).blk t).view.set ↔ ∀ a : Fin 3, win0_2.index t a * S1x128x128.size a ≤ (i a).val
      ∧ (i a).val < win0_2.index t a * S1x128x128.size a + S1x128x128.size a := by
  show i ∈ ((View.whole main_v0_0).slice (win0_2.rect t)).set ↔ _
  rw [View.set_slice_whole, Rect.mem_set_unit]
  exact Iff.rfl

theorem attCover (i : S4x512x512.Idx) :
    ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 512 := (i 2).isLt
  have hN : cfg0.N = 64 := N_0
  obtain ⟨t, ht⟩ : ∃ t : Fin cfg0.N, t.val = (i 0).val * 16 + (i 1).val / 128 * 4 + (i 2).val / 128 :=
    ⟨⟨(i 0).val * 16 + (i 1).val / 128 * 4 + (i 2).val / 128, by omega⟩, rfl⟩
  obtain ⟨-, -, ⟨e0, e1, e2⟩, -⟩ := idx_facts t
  refine ⟨t, flush0_2 t, ?_⟩
  rw [mem_attBlk]
  intro a
  match a with
  | ⟨0, _⟩ => show win0_2.index t 0 * 1 ≤ (i 0).val ∧ (i 0).val < win0_2.index t 0 * 1 + 1; omega
  | ⟨1, _⟩ => show win0_2.index t 1 * 128 ≤ (i 1).val ∧ (i 1).val < win0_2.index t 1 * 128 + 128; omega
  | ⟨2, _⟩ => show win0_2.index t 2 * 128 ≤ (i 2).val ∧ (i 2).val < win0_2.index t 2 * 128 + 128; omega

theorem attFinal (c : Dev nD) : (dats m 0 c).arrAt 2 cfg0.N = attArr (Qa m c) (Ya m c) :=
  (dats m 0 c).arrAt_eq_of_cover 2 (attArr (Qa m c) (Ya m c)) (fun t _ => attFlushed m c t) attCover

/-! ## The second result: a sweep's last point writes back its block of sim, and those blocks tile the array -/

theorem simFlushed (c : Dev nD) (t : Fin cfg0.N) (hf : (cfg0.win 3).flush t = true) :
    (dats m 0 c).flushed 3 t = ((cfg0.win 3).blk t).view.read (Elt Ideal) (simArr (Qa m c) (Ya m c)) := by
  have h3 : t.val % 4 = 3 := (flush0_3 t).mp hf
  obtain ⟨-, -, -, ⟨e0, e1, e2⟩⟩ := idx_facts t
  rw [Value.flushed3, simBuf_eq m c t h3]
  funext y
  obtain ⟨z, z', p, rfl⟩ : ∃ (z z' : Fin 1) (p : Fin 128), y = ix3 z z' p := ⟨y 0, y 1, y 2, eq_ix3 y⟩
  obtain rfl : z = 0 := Subsingleton.elim _ _
  obtain rfl : z' = 0 := Subsingleton.elim _ _
  show k0_pay5 (F := Ideal) (outsAt0 m c t.val t.isLt).2.2 (ix3 0 0 p)
    = simArr (Qa m c) (Ya m c) (((cfg0.win 3).blk t).view.emb (ix3 0 0 p))
  refine (Payload.simBlock_apply _ p).trans ?_
  have hmax := scratch_isMax m c t.val t.isLt p
  rw [show 128 * (t.val % 4 + 1) = 512 from by omega] at hmax
  refine (IsMaxBelow.eq_sim (Qa m c) (Ya m c) (batchOf t.val) (rowOf t.val p) hmax).trans ?_
  show sim _ _ _ _ = sim _ _ _ _
  congr 1 <;> apply Fin.ext
  · show t.val / 16 % 4 = win0_3.index t 0 * 1 + 1 * 0; omega
  · show 128 * (t.val / 4 % 4) + p.val = win0_3.index t 2 * 128 + 1 * p.val; omega

theorem mem_simBlk (t : Fin cfg0.N) (i : S4x1x512.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0_1).slice (win0_3.rect t)).set ↔ _
  rw [View.set_slice_whole, Rect.mem_set_unit]
  exact Iff.rfl

theorem simCover (i : S4x1x512.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 512 := (i 2).isLt
  have hN : cfg0.N = 64 := N_0
  obtain ⟨t, ht⟩ : ∃ t : Fin cfg0.N, t.val = (i 0).val * 16 + (i 2).val / 128 * 4 + 3 :=
    ⟨⟨(i 0).val * 16 + (i 2).val / 128 * 4 + 3, by omega⟩, rfl⟩
  obtain ⟨-, -, -, ⟨e0, e1, e2⟩⟩ := idx_facts t
  refine ⟨t, (flush0_3 t).mpr (by omega), ?_⟩
  rw [mem_simBlk]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 128 ≤ (i 2).val ∧ (i 2).val < win0_3.index t 2 * 128 + 128; omega

theorem simFinal (c : Dev nD) : (dats m 0 c).arrAt 3 cfg0.N = simArr (Qa m c) (Ya m c) :=
  (dats m 0 c).arrAt_eq_of_cover 3 (simArr (Qa m c) (Ya m c)) (simFlushed m c) simCover

/-! ## The run -/

/-- Every weakly fair execution of the kernel program ends with its two results at att and sim of the
    arguments as launched, and the arguments unchanged. -/
theorem run : θ_run defs (onTc (τ := τ) (main (F := Ideal))) ⟨m, fun _ => 0, ρ⟩ fun r => ∀ c : Dev nD,
      r.2.mem ((c : Thread nD τ).loc main_v0_0) = attArr (Qa m c) (Ya m c)
      ∧ r.2.mem ((c : Thread nD τ).loc main_v0_1) = simArr (Qa m c) (Ya m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (attFinal m c), (h c).2.1.trans (simFinal m c), (h c).2.2⟩)
    (Value.run_blocks m ρ)

end Cert.KernelIdeal.Whole

end
-- ==== Proof.RefWhole.lean ====
/-
  The reference's two results are att and sim, entry by entry.

  The reference forms |Q[b,i,d] - Y[b,j,d]| on a [4, 512, 512, 128] grid laid out (b, j, i, d), sums
  over d from zero, divides by 128, swaps the two middle axes and negates: at (b, i, j) that is
  -((0 + ∑ d, |Q[b,i,d] - Y[b,j,d]|) / 128), and 0 + s = s. Its second result is the maximum of that
  array along its last axis, from -∞, given a middle axis of length one.
-/
import proofs.«103267_j42649025249395_1_alg».proof.Proof.Gen.ReferenceIdeal.Read
import proofs.«103267_j42649025249395_1_alg».proof.Proof.L1Att
import Idealize.ShloMosaic.Lib.ValueIdx
import Idealize.ShloMosaic.PureOps.Ideal.Laws
import Idealize.ShloMosaic.PureOps.Reduce

noncomputable section

open scoped BigOperators

namespace Cert.ReferenceIdeal.Whole

open Cert.ReferenceIdeal Cert.ReferenceIdeal.Gen Cert.ReferenceIdeal.Read Cert.L1Att
open Idealize.ShloMosaic Idealize.ShloMosaic.ValueIdx

variable (Q Y : (⟨S4x512x128, .f32⟩ : BufTy).Contents (Elt Ideal))

/-- The first result is att. -/
theorem att_eq : val_main_v10 (F := Ideal) Q Y = attArr Q Y := by
  funext x
  obtain ⟨b, i, j, rfl⟩ : ∃ (b : Fin 4) (i j : Fin 512), x = ix3 b i j := ⟨x 0, x 1, x 2, eq_ix3 x⟩
  have eQ : ∀ k : Fin 128, idx_main_v0 (idx_main_v2 (idx_main_v6 (idx_main_v9 (ix3 b i j)) k)) = ix3 b i k :=
    fun k => funext fun a => Fin.ext (by match a with | ⟨0, _⟩ => rfl | ⟨1, _⟩ => rfl | ⟨2, _⟩ => rfl)
  have eY : ∀ k : Fin 128, idx_main_v1 (idx_main_v3 (idx_main_v6 (idx_main_v9 (ix3 b i j)) k)) = ix3 b j k :=
    fun k => funext fun a => Fin.ext (by match a with | ⟨0, _⟩ => rfl | ⟨1, _⟩ => rfl | ⟨2, _⟩ => rfl)
  rw [val_main_v10_apply, val_main_v9_apply, val_main_v8_apply, val_main_v6_apply, val_main_v7_apply,
    val_main_cst_0_apply, val_main_cst_apply]
  simp only [val_main_v5_apply, val_main_v4_apply, val_main_v2_apply, val_main_v3_apply, val_main_v0_apply,
    val_main_v1_apply, eQ, eY, Ideal.hostNegf_def, Ideal.negf_def, Ideal.hostDivf_def, Ideal.hostAbsf_def,
    Ideal.absf_def, Ideal.subf_def, Ideal.ofBits_def, Ideal.ofBits_zero_f32, zero_add]
  rfl

/-- The host's maximum along the last axis, from -∞, at row (b, i): the maximum over the 512 columns of that row. -/
theorem rowMax_apply (x : FVec Ideal S4x512x512 .f32) (b : Fin 4) (i : Fin 512) :
    Host.reduce FloatOps.maximumf x (val_main_cst_1 (F := Ideal)) reducesTo_S4x512x512_S4x512_d2 h_S_ (ix2 b i)
      = Finset.fold max negInf (fun k : Fin 512 => x (ix3 b i k)) Finset.univ := by
  have h : S4x512x512.Reduces [2] S4x512 := by decide
  rw [Host.reduce_eq_fold_single FloatOps.maximumf x _ reducesTo_S4x512x512_S4x512_d2 h h_S_]
  have hf : (x ∘ h.lift (ix2 b i)) = fun k : Fin 512 => x (ix3 b i k) :=
    funext fun k => congrArg x (funext fun a => Fin.ext (by match a with | ⟨0, _⟩ => rfl | ⟨1, _⟩ => rfl | ⟨2, _⟩ => rfl))
  exact congrArg (fun f => Finset.fold max negInf f (Finset.univ : Finset (Fin 512))) hf

/-- The second result is sim. -/
theorem sim_eq : val_main_v12 (F := Ideal) Q Y = simArr Q Y := by
  funext x
  obtain ⟨b, z, i, rfl⟩ : ∃ (b : Fin 4) (z : Fin 1) (i : Fin 512), x = ix3 b z i := ⟨x 0, x 1, x 2, eq_ix3 x⟩
  have ei : idx_main_v12 (ix3 b z i) = ix2 b i :=
    funext fun a => Fin.ext (by match a with | ⟨0, _⟩ => rfl | ⟨1, _⟩ => rfl)
  rw [val_main_v12_apply, ei]
  unfold val_main_v11
  refine (rowMax_apply (val_main_v10 (F := Ideal) Q Y) b i).trans ?_
  rw [att_eq]
  rfl

end Cert.ReferenceIdeal.Whole

end
-- ==== Proof.lean ====
/-
  The kernel and its reference compute the same two arrays over the extended reals.

  Inputs Q, Y of shape [4, 512, 128]. Both programs return
    att[b, i, j] = -( (∑ d < 128, |Q[b,i,d] - Y[b,j,d]|) / 128 )      (shape [4, 512, 512]),
    sim[b, 0, i] = the maximum over j of att[b, i, j], from -∞          (shape [4, 1, 512]).

  The reference builds all 4·512·512·128 absolute differences at once, sums over d, divides, swaps the
  two middle axes, negates, and takes one maximum along the last axis. The kernel walks a 4 × 4 × 4
  grid of 128 × 128 tiles of att: each point forms its tile from 128 rows of Q and 128 rows of Y and
  writes it out, and along each sweep of four column tiles it keeps a running row maximum in a
  scratch buffer, reset to -∞ at the sweep's start and copied out at its end.

  The two agree entry by entry without any assumption on the inputs:
    the kernel writes 0 - x where the reference negates, and 0 - x = -x on the extended reals;
    the reference's sum starts from a zero, and 0 + s = s;
    a maximum over 512 columns is the join of the maxima over four runs of 128 columns, each taken
    from -∞: max is associative, commutative and idempotent, and this is used through upper bounds.
  The kernel's idealization rewrites nothing, so the statement that it is the kernel's sanctioned
  idealization is the trivial one. The three frame statements are the generated frames of the two
  kernel programs and the reference's generated run with its results dropped.
-/
import proofs.«103267_j42649025249395_1_alg».proof.Defs
import proofs.«103267_j42649025249395_1_alg».proof.Proof.Gen.Kernel
import proofs.«103267_j42649025249395_1_alg».proof.Proof.Gen.Kernel.Skeleton
import proofs.«103267_j42649025249395_1_alg».proof.Proof.Gen.Kernel.Launch
import proofs.«103267_j42649025249395_1_alg».proof.Proof.Gen.Kernel.Points
import proofs.«103267_j42649025249395_1_alg».proof.Proof.Gen.Kernel.Frame
import proofs.«103267_j42649025249395_1_alg».proof.Proof.Gen.KernelIdeal
import proofs.«103267_j42649025249395_1_alg».proof.Proof.Gen.KernelIdeal.Skeleton
import proofs.«103267_j42649025249395_1_alg».proof.Proof.Gen.KernelIdeal.Launch
import proofs.«103267_j42649025249395_1_alg».proof.Proof.Gen.KernelIdeal.Points
import proofs.«103267_j42649025249395_1_alg».proof.Proof.Gen.KernelIdeal.Frame
import proofs.«103267_j42649025249395_1_alg».proof.Proof.Gen.ReferenceIdeal
import proofs.«103267_j42649025249395_1_alg».proof.Proof.Gen.Pre_finite_inputs
import proofs.«103267_j42649025249395_1_alg».proof.Proof.Gen.KernelIdeal.Value
import proofs.«103267_j42649025249395_1_alg».proof.Proof.Gen.ReferenceIdeal.Run
import proofs.«103267_j42649025249395_1_alg».proof.Proof.Gen.ReferenceIdeal.Read
import proofs.«103267_j42649025249395_1_alg».proof.Proof.KernelWhole
import proofs.«103267_j42649025249395_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories that agree on Q and Y, both programs end with att and sim of them. -/
theorem algebraic : Cert.algebraic_KernelIdeal_ReferenceIdeal := by
  intro m ρ m' ρ' _ hagree
  refine ⟨fun c => Cert.L1Att.attArr (Cert.KernelIdeal.Whole.Qa m c) (Cert.KernelIdeal.Whole.Ya m c),
    fun c => Cert.L1Att.simArr (Cert.KernelIdeal.Whole.Qa m c) (Cert.KernelIdeal.Whole.Ya m c),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v10_eq, Cert.ReferenceIdeal.Whole.att_eq, (hagree c).1, (hagree c).2]
  · rw [(h c).2.1, Cert.ReferenceIdeal.Read.val_main_v12_eq, Cert.ReferenceIdeal.Whole.sim_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
